-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x384 : Shape := ⟨3, ![8, 512, 384]⟩
abbrev S8x512 : Shape := ⟨2, ![8, 512]⟩
abbrev S_ : Shape := ⟨0, ![]⟩

class Facts : Prop where
  bcast_S_S8x512x384 : S_.BroadcastsInDim S8x512x384 (![] : Fin 0 → Fin S8x512x384.rank)
  reducesTo_S8x512x384_S_d0_1_2 : S8x512x384.ReducesTo [0, 1, 2] S_
  h_S_ : 0 < S_.numel

variable [Facts]

def fn {F : FTy → Type} [FloatOps F] (main_arg0 : FVec F S8x512x384 .f32) (main_arg1 : IVec S8x512 32) : IVec S_ 1 :=
  let main_v0 : FVec F S8x512x384 .f32 := Host.absf main_arg0
  let main_cst : FVec F S_ .f32 := constant S_ .f32 0x7F800000#32
  let main_v1 : FVec F S8x512x384 .f32 := broadcastInDim S8x512x384 ![] bcast_S_S8x512x384 main_cst
  let main_v2 : IVec S8x512x384 1 := cmpf .olt main_v0 main_v1
  let main_c : IVec S_ 1 := constantI S_ 1 1#1
  let main_v3 : IVec S_ 1 := (fun x v => Host.reduce IntOp.andi x v reducesTo_S8x512x384_S_d0_1_2 h_S_) main_v2 main_c
  main_v3
-- ==== Kernel.lean ====
abbrev S8x512x384 : Shape := ⟨3, ![8, 512, 384]⟩
abbrev S8x512 : Shape := ⟨2, ![8, 512]⟩
abbrev S_ : Shape := ⟨0, ![]⟩
abbrev S8x1x512 : Shape := ⟨3, ![8, 1, 512]⟩
abbrev S8x4096x384 : Shape := ⟨3, ![8, 4096, 384]⟩
abbrev S1x512x384 : Shape := ⟨3, ![1, 512, 384]⟩
abbrev S1x1x512 : Shape := ⟨3, ![1, 1, 512]⟩
abbrev S1x1024x384 : Shape := ⟨3, ![1, 1024, 384]⟩
abbrev S512x384 : Shape := ⟨2, ![512, 384]⟩
abbrev S1x512 : Shape := ⟨2, ![1, 512]⟩
abbrev S1024x512 : Shape := ⟨2, ![1024, 512]⟩
abbrev S1024x384 : Shape := ⟨2, ![1024, 384]⟩

abbrev nBuf : Space → Nat
  | .hbm => 9
  | .vmem => 8
  | .smem => 0
  | _ => 0

abbrev bufTy : (tb : Table) → Fin (tcTables nBuf tb) → BufTy
  | .hbm, ⟨0, _⟩ => ⟨S8x512x384, .f32⟩
  | .hbm, ⟨1, _⟩ => ⟨S8x512, .i32⟩
  | .hbm, ⟨2, _⟩ => ⟨S_, .i32⟩
  | .hbm, ⟨3, _⟩ => ⟨S_, .i32⟩
  | .hbm, ⟨4, _⟩ => ⟨S8x512, .i32⟩
  | .hbm, ⟨5, _⟩ => ⟨S8x512, .i32⟩
  | .hbm, ⟨6, _⟩ => ⟨S8x1x512, .i32⟩
  | .hbm, ⟨7, _⟩ => ⟨S8x1x512, .i32⟩
  | .hbm, ⟨8, _⟩ => ⟨S8x4096x384, .f32⟩
  | .local _ .vmem, ⟨0, _⟩ => ⟨S1x512x384, .f32⟩
  | .local _ .vmem, ⟨1, _⟩ => ⟨S1x512x384, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x1024x384, .f32⟩
  | .local _ .vmem, ⟨7, _⟩ => ⟨S1x1024x384, .f32⟩
  | _, _ => ⟨S8x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S_ : S_.BroadcastsInDim S_ (![] : Fin 0 → Fin S_.rank)
  reduceWindows_S8x512_S8x512_w1s1p0_0_w512s1p511_0 : S8x512.ReduceWindows (![1, 512] : Fin 2 → Nat) ![1, 1] ![0, 511] ![0, 0] S8x512
  h_S_ : 0 < S_.numel
  shapeCasts_S8x512_S8x1x512 : S8x512.ShapeCasts S8x1x512
  inb_S1x512x384_S1x512x384_0_0_0 : ∀ a, (![0, 0, 0] : Fin 3 → Nat) a + S1x512x384.size a ≤ S1x512x384.size a
  h_S1x512x384 : 0 < S1x512x384.numel
  shapeCasts_S1x512x384_S512x384 : S1x512x384.ShapeCasts S512x384
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  iota_S1024x512_d0_w32 : S1024x512.Iotas .tc 32 [0]
  broadcasts_S1x512_S1024x512 : S1x512.Broadcasts S1024x512
  natLt_1_32 : 1 < 32
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  shapeCasts_S1024x384_S1x1024x384 : S1024x384.ShapeCasts S1x1024x384
  dot_S1024x512_S512x384_S1024x384_1_0_0_1_n_n_wf : DotDims.WF S1024x512 S512x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x384.size a ≤ S8x512x384.size a
  hwx0_0 : ∀ i : grid0.Coords, EltTy.bits .f32 = 32 ∨ (Rect.block (s := S8x512x384) S1x512x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .i32 = 32 ∨ (Rect.block (s := S8x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .i32 = 32 ∨ (Rect.block (s := S8x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x384.size a ≤ S8x4096x384.size a
  hwx0_3 : ∀ i : grid0.Coords, EltTy.bits .f32 = 32 ∨ (Rect.block (s := S8x4096x384) S1x1024x384.size (cc0_transform_3 i) (hinb0_3 i)).WholeWords (EltTy.packing .f32)

variable [Facts₀]

def dot_S1024x512_S512x384_S1024x384_1_0_0_1_n_n : DotDims S1024x512 S512x384 S1024x384 where
  lhsContracting := [1]
  rhsContracting := [0]
  lhsNonContracting := [0]
  rhsNonContracting := [1]
  lhsBatch := []
  rhsBatch := []
  wf := dot_S1024x512_S512x384_S1024x384_1_0_0_1_n_n_wf

abbrev win0_0 : Pipeline.Window sig grid0 :=
  Pipeline.Window.ofSpec (Memref.whole main_arg0) S1x512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x384 : Shape := ⟨3, ![8, 512, 384]⟩
abbrev S8x512 : Shape := ⟨2, ![8, 512]⟩
abbrev S_ : Shape := ⟨0, ![]⟩
abbrev S4096 : Shape := ⟨1, ![4096]⟩
abbrev S1x4096x1 : Shape := ⟨3, ![1, 4096, 1]⟩
abbrev S8x1x512 : Shape := ⟨3, ![8, 1, 512]⟩
abbrev S8x4096x512 : Shape := ⟨3, ![8, 4096, 512]⟩
abbrev S8x4096x384 : Shape := ⟨3, ![8, 4096, 384]⟩

abbrev nBuf : Space → Nat
  | .hbm => 19
  | .vmem => 0
  | .smem => 0
  | _ => 0

abbrev bufTy : (tb : Table) → Fin (tcTables nBuf tb) → BufTy
  | .hbm, ⟨0, _⟩ => ⟨S8x512x384, .f32⟩
  | .hbm, ⟨1, _⟩ => ⟨S8x512, .i32⟩
  | .hbm, ⟨2, _⟩ => ⟨S_, .i32⟩
  | .hbm, ⟨3, _⟩ => ⟨S_, .i32⟩
  | .hbm, ⟨4, _⟩ => ⟨S8x512, .i32⟩
  | .hbm, ⟨5, _⟩ => ⟨S8x512, .i32⟩
  | .hbm, ⟨6, _⟩ => ⟨S4096, .i32⟩
  | .hbm, ⟨7, _⟩ => ⟨S1x4096x1, .i32⟩
  | .hbm, ⟨8, _⟩ => ⟨S8x1x512, .i32⟩
  | .hbm, ⟨9, _⟩ => ⟨S8x4096x512, .i32⟩
  | .hbm, ⟨10, _⟩ => ⟨S8x4096x512, .i32⟩
  | .hbm, ⟨11, _⟩ => ⟨S8x4096x512, .i1⟩
  | .hbm, ⟨12, _⟩ => ⟨S8x1x512, .i32⟩
  | .hbm, ⟨13, _⟩ => ⟨S8x4096x512, .i32⟩
  | .hbm, ⟨14, _⟩ => ⟨S8x4096x512, .i32⟩
  | .hbm, ⟨15, _⟩ => ⟨S8x4096x512, .i1⟩
  | .hbm, ⟨16, _⟩ => ⟨S8x4096x512, .i1⟩
  | .hbm, ⟨17, _⟩ => ⟨S8x4096x512, .f32⟩
  | .hbm, ⟨18, _⟩ => ⟨S8x4096x384, .f32⟩
  | _, _ => ⟨S8x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x512_S8x512_w1s1p0_0_w512s1p511_0 : S8x512.ReduceWindows (![1, 512] : Fin 2 → Nat) ![1, 1] ![0, 511] ![0, 0] S8x512
  h_S_ : 0 < S_.numel
  bcast_S4096_S1x4096x1_1 : S4096.BroadcastsInDim S1x4096x1 (![1] : Fin 1 → Fin S1x4096x1.rank)
  bcast_S8x512_S8x1x512_0_2 : S8x512.BroadcastsInDim S8x1x512 (![0, 2] : Fin 2 → Fin S8x1x512.rank)
  bcast_S1x4096x1_S8x4096x512_0_1_2 : S1x4096x1.BroadcastsInDim S8x4096x512 (![0, 1, 2] : Fin 3 → Fin S8x4096x512.rank)
  bcast_S8x1x512_S8x4096x512_0_1_2 : S8x1x512.BroadcastsInDim S8x4096x512 (![0, 1, 2] : Fin 3 → Fin S8x4096x512.rank)
  dot_S8x4096x512_S8x512x384_S8x4096x384_2_1_1_2_0_0_wf : DotDims.WF S8x4096x512 S8x512x384 S8x4096x384 [2] [1] [1] [2] [0] [0]

variable [Facts₀]

def dot_S8x4096x512_S8x512x384_S8x4096x384_2_1_1_2_0_0 : DotDims S8x4096x512 S8x512x384 S8x4096x384 where
  lhsContracting := [2]
  rhsContracting := [1]
  lhsNonContracting := [1]
  rhsNonContracting := [2]
  lhsBatch := [0]
  rhsBatch := [0]
  wf := dot_S8x4096x512_S8x512x384_S8x4096x384_2_1_1_2_0_0_wf

class Facts : Prop extends Facts₀ where

variable [Facts]
-- ==== Proof.Spec.lean ====
/-
  The length regulator as ONE function of its arguments.

  For phoneme vectors `xs : f32[8, 512, 384]` and two arrays of 32-bit words `lo hi : i32[8, 512]` (the left and right
  boundaries of each phoneme's window of frames), output frame `t` of batch `b` is the sum of the phoneme vectors whose
  window holds `t`:
      ys[b, t, d] = Σ_k  [ lo[b, k] ≤ t < hi[b, k] ] · xs[b, k, d],
  the two compares being signed compares of 32-bit words against the word of `t`, and the bracket the number 0 or 1.
  Both programs compute this: the kernel one 1024-frame tile of one batch at a time, with the frame word formed as
  `r + 1024 · tile`, the reference all frames at once.  No law of arithmetic is needed to join them beyond the value of
  the bracket: the kernel widens the mask bit to 32 bits and converts it as a signed word, the reference converts the
  bit as an unsigned one, and both give 0 or 1.
-/
import Idealize.ShloMosaic.PureOps.Ideal
import Idealize.ShloMosaic.Lib.ValueIdx

noncomputable section

namespace Cert.LengthReg

open Idealize.ShloMosaic Idealize.ShloMosaic.ValueIdx

/-- The mask bit of one (frame, phoneme) pair: the frame word `f` is at least `lo` and below `hi`, as signed words. -/
def inWin (lo hi f : BitVec 32) : BitVec 1 := IntOp.andi (IntOp.cmpi .sge f lo) (IntOp.cmpi .slt f hi)

/-- The weight of phoneme window `[lo, hi)` at frame number `t`: 1 when the window holds the frame, else 0. -/
def wgt (lo hi : BitVec 32) (t : Nat) : EReal := (((inWin lo hi (BitVec.ofNat 32 t)).toNat : ℝ) : EReal)

/-- The expanded sequence at batch `b`, frame `t`, feature `d`. -/
def expand (xs : (⟨3, ![8, 512, 384]⟩ : Shape).Idx → EReal) (lo hi : (⟨2, ![8, 512]⟩ : Shape).Idx → BitVec 32)
    (b : Fin 8) (t : Fin 4096) (d : Fin 384) : EReal :=
  ∑ k : Fin 512, wgt (lo (ix2 b k)) (hi (ix2 b k)) t.val * xs (ix3 b k d)

/-- A bit widened to 32 bits and read as a SIGNED word is the bit read as an unsigned number: 0 or 1 either way. -/
theorem bit_signed_eq_unsigned (b : BitVec 1) : ((b.setWidth 32).toInt : ℝ) = (b.toNat : ℝ) := by
  by_cases h : b = 1#1
  · subst h
    have e : ((1#1 : BitVec 1).setWidth 32).toInt = 1 := by decide
    have e' : (1#1 : BitVec 1).toNat = 1 := by decide
    rw [e, e']; norm_num
  · have h0 := eq_zero_of_ne_one h
    subst h0
    have e : ((0#1 : BitVec 1).setWidth 32).toInt = 0 := by decide
    have e' : (0#1 : BitVec 1).toNat = 0 := by decide
    rw [e, e']; norm_num

/-- The frame word the kernel forms inside tile `tile`, row `r` of the tile plus 1024 times the tile number in 32-bit
    arithmetic, is the word of the frame number `tile · 1024 + r`. -/
theorem frame_word (tile r : Nat) :
    IntOp.addi (BitVec.ofNat 32 r) (Scalar.muli (BitVec.ofNat 32 tile) 1024#32) = BitVec.ofNat 32 (tile * 1024 + r) := by
  show BitVec.ofNat 32 r + BitVec.ofNat 32 tile * BitVec.ofNat 32 1024 = _
  rw [← BitVec.ofNat_mul, ← BitVec.ofNat_add, Nat.add_comm]

/-! ## The boundaries, and the result as one array -/

abbrev Durations : Shape := ⟨2, ![8, 512]⟩
abbrev Scalar0 : Shape := ⟨0, ![]⟩

theorem cum_windows : Durations.ReduceWindows (![1, 512] : Fin 2 → Nat) ![1, 1] ![0, 511] ![0, 0] Durations := by decide
theorem scalar_pos : 0 < Scalar0.numel := by decide
theorem scalar_bcast : Scalar0.BroadcastsInDim Scalar0 (![] : Fin 0 → Fin Scalar0.rank) := by decide

/-- The right boundaries: the running sum of the durations along the phoneme axis, as both programs print it — a
    window sum of width 512 over the array padded by 511 zeros on the left, in wrapping 32-bit arithmetic. -/
def cumOf (ds : IVec Durations 32) : IVec Durations 32 :=
  Host.reduceWindow IntOp.addi ![1, 512] ![1, 1] ![0, 511] ![0, 0] ds
    (broadcastInDim Scalar0 ![] scalar_bcast (constantI Scalar0 32 0#32)) cum_windows scalar_pos

/-- The left boundaries: the running sum less the phoneme's own duration. -/
def leftOf (ds : IVec Durations 32) : IVec Durations 32 := subi (cumOf ds) ds

/-- THE RESULT both programs end with: the expanded sequence of `xs` under the windows the durations `ds` give. -/
def result (xs : (⟨3, ![8, 512, 384]⟩ : Shape).Idx → EReal) (ds : IVec Durations 32) :
    (⟨3, ![8, 4096, 384]⟩ : Shape).Idx → EReal :=
  fun j => expand xs (leftOf ds) (cumOf ds) (j 0) (j 1) (j 2)

end Cert.LengthReg

end
-- ==== Proof.KernelPayload.lean ====
/-
  The kernel body's stored value, read at an index.

  At grid point `i = (batch, tile)` the body stores, at row `r` and feature `d` of its 1024 × 384 tile, the product of
  the tile's 1024 × 512 mask with the batch's 512 × 384 phoneme block, accumulated from zero:
      Σ_k  mask[r, k] · x[k, d],     mask[r, k] = [ lo[k] ≤ r + 1024·tile < hi[k] ]   (0 or 1),
  the narrowing of both factors to bf16 being the identity on extended reals.  The contraction runs over the one
  contracted axis of extent 512, so the sum is re-indexed over `Fin 512`; the left factor's index is then `(r, k)` and
  the right factor's `(k, d)`.
-/
import proofs.«179444_j1039382086246_1_alg».proof.Proof.Gen.KernelIdeal.Skeleton
import proofs.«179444_j1039382086246_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LengthReg

/-! ## The product's index maps, axis by axis -/

theorem lhs_axis0 (j : S1024x384.Idx) (k : dot_S1024x512_S512x384_S1024x384_1_0_0_1_n_n.contr.Idx) :
    (dot_S1024x512_S512x384_S1024x384_1_0_0_1_n_n.lhsIdx j k 0).val = (j 0).val := by
  unfold DotDims.lhsIdx
  rw [dif_neg (show ¬(0 : Fin S1024x512.rank) ∈ dot_S1024x512_S512x384_S1024x384_1_0_0_1_n_n.lhsBatch by decide),
    dif_pos (show (0 : Fin S1024x512.rank) ∈ dot_S1024x512_S512x384_S1024x384_1_0_0_1_n_n.lhsNonContracting by decide)]
  rfl

theorem lhs_axis1 (j : S1024x384.Idx) (k : dot_S1024x512_S512x384_S1024x384_1_0_0_1_n_n.contr.Idx) :
    (dot_S1024x512_S512x384_S1024x384_1_0_0_1_n_n.lhsIdx j k 1).val = (k ⟨0, by decide⟩).val :=
  DotDims.lhsIdx_val_of_single _ rfl j k

theorem rhs_axis0 (j : S1024x384.Idx) (k : dot_S1024x512_S512x384_S1024x384_1_0_0_1_n_n.contr.Idx) :
    (dot_S1024x512_S512x384_S1024x384_1_0_0_1_n_n.rhsIdx j k 0).val = (k ⟨0, by decide⟩).val :=
  DotDims.rhsIdx_val_of_single _ rfl j k

theorem rhs_axis1 (j : S1024x384.Idx) (k : dot_S1024x512_S512x384_S1024x384_1_0_0_1_n_n.contr.Idx) :
    (dot_S1024x512_S512x384_S1024x384_1_0_0_1_n_n.rhsIdx j k 1).val = (j 1).val := by
  unfold DotDims.rhsIdx
  rw [dif_neg (show ¬(1 : Fin S512x384.rank) ∈ dot_S1024x512_S512x384_S1024x384_1_0_0_1_n_n.rhsBatch by decide),
    dif_pos (show (1 : Fin S512x384.rank) ∈ dot_S1024x512_S512x384_S1024x384_1_0_0_1_n_n.rhsNonContracting by decide)]
  rfl

/-! ## The two factors' indices under the sum over `Fin 512` -/

/-- Under the re-indexed sum the left factor is read at `(r, k)`. -/
theorem lhs_at (r : Fin 1024) (d : Fin 384) (k : Fin 512) :
    dot_S1024x512_S512x384_S1024x384_1_0_0_1_n_n.lhsIdx (ix2 r d) ((contrEquiv1 dot_S1024x512_S512x384_S1024x384_1_0_0_1_n_n 512 rfl rfl).symm k) = ix2 r k := by
  funext a; apply Fin.ext
  match a with
  | ⟨0, _⟩ => exact lhs_axis0 _ _
  | ⟨1, _⟩ => exact (lhs_axis1 _ _).trans (contrEquiv1_symm_val _ 512 rfl rfl k)

/-- Under the re-indexed sum the right factor is read at `(k, d)`. -/
theorem rhs_at (r : Fin 1024) (d : Fin 384) (k : Fin 512) :
    dot_S1024x512_S512x384_S1024x384_1_0_0_1_n_n.rhsIdx (ix2 r d) ((contrEquiv1 dot_S1024x512_S512x384_S1024x384_1_0_0_1_n_n 512 rfl rfl).symm k) = ix2 k d := by
  funext a; apply Fin.ext
  match a with
  | ⟨0, _⟩ => exact (rhs_axis0 _ _).trans (contrEquiv1_symm_val _ 512 rfl rfl k)
  | ⟨1, _⟩ => exact rhs_axis1 _ _

/-! ## The mask's ingredients at `(r, k)` -/

/-- The frame word at row `r` of tile `i 1`: the row number plus 1024 times the tile number, whatever the column. -/
theorem frames_at (i : grid0.Coords) (r : Fin 1024) (k : Fin 512) :
    addi (iota .tc S1024x512 32 [0] iota_S1024x512_d0_w32) (broadcast S1024x512 (Scalar.muli (BitVec.ofNat 32 (i 1).val) 1024#32)) (ix2 r k)
      = BitVec.ofNat 32 ((i 1).val * 1024 + r.val) := by
  show IntOp.addi (iota .tc S1024x512 32 [0] iota_S1024x512_d0_w32 (ix2 r k)) (Scalar.muli (BitVec.ofNat 32 (i 1).val) 1024#32) = _
  rw [iota_single_apply]
  exact frame_word _ _

/-- A boundary row, viewed `[1, 512]` and broadcast down the tile's 1024 rows, reads its column `k` at every row. -/
theorem row_at (x : Vec Ideal S1x1x512 .i32) (r : Fin 1024) (k : Fin 512) :
    broadcastTo S1024x512 (shapeCast S1x512 x shapeCasts_S1x1x512_S1x512) broadcasts_S1x512_S1024x512 (ix2 r k) = x (ix3 0 0 k) :=
  (broadcastTo_1b_ab_apply _ _ r k).trans (shapeCast_1ab_ab_apply x _ 0 k)

/-- The mask entry as the kernel forms it — the two signed compares, their conjunction, the bit widened to 32 bits and
    converted as a signed word — is the weight of the window at the frame. -/
theorem weight_of_words (a b c lo hi : BitVec 32) (t : Nat) (ha : a = BitVec.ofNat 32 t) (hb : b = lo) (hc : c = hi) :
    (FloatOps.sitofp (F := Ideal) .f32 ((IntOp.andi (IntOp.cmpi .sge a b) (IntOp.cmpi .slt a c)).setWidth 32) : EReal) = wgt lo hi t := by
  subst ha hb hc
  exact congrArg (fun x : ℝ => (x : EReal)) (bit_signed_eq_unsigned _)

/-! ## The stored value -/

/-- THE STORED VALUE at row `r`, feature `d` of the tile at grid point `i`: the sum over the 512 phonemes of the window's
    weight at frame `1024 · tile + r` times the phoneme's feature. -/
theorem pay_apply (i : grid0.Coords) (x0 : Vec Ideal S1x512x384 .f32) (x1 x2 : Vec Ideal S1x1x512 .i32)
    (z : Fin 1) (r : Fin 1024) (d : Fin 384) :
    k0_pay1 (F := Ideal) i x0 x1 x2 (ix3 z r d)
      = ∑ k : Fin 512, wgt (x1 (ix3 0 0 k)) (x2 (ix3 0 0 k)) ((i 1).val * 1024 + r.val) * x0 (ix3 0 k d) := by
  unfold k0_pay1
  refine (shapeCast_ab_1ab_apply _ _ z r d).trans ?_
  refine (Ideal.matmul_constant_zero_apply dot_S1024x512_S512x384_S1024x384_1_0_0_1_n_n none _ _ (ix2 r d)).trans ?_
  rw [← Equiv.sum_comp (contrEquiv1 dot_S1024x512_S512x384_S1024x384_1_0_0_1_n_n 512 rfl rfl).symm]
  refine Finset.sum_congr rfl fun k _ => ?_
  rw [lhs_at, rhs_at]
  refine congrArg₂ (· * ·) ?_ ?_
  · exact weight_of_words _ _ _ _ _ _ (frames_at i r k) (row_at x1 r k) (row_at x2 r k)
  · exact shapeCast_1ab_ab_apply x0 _ k d

end Cert.KernelIdeal.Payload

end
-- ==== Proof.KernelValue.lean ====
/-
  What the kernel's result array holds after the run, as one function of the arrays the region finds.

  The grid has 8 × 4 points; point `(b, tile)` reads phoneme block `b` (all 512 × 384 of it) and the two boundary rows of
  batch `b`, and writes back the 1024 × 384 tile of the result at batch `b`, frames `1024·tile … 1024·tile + 1023`.  The
  tiles are disjoint and fill the 8 × 4096 × 384 result, so the array ends as the function whose value at
  `(b, t, d)` is the stored value of the point that owns frame `t` — and that stored value depends on the frame only
  through the frame number `1024·tile + r = t`.
-/
import proofs.«179444_j1039382086246_1_alg».proof.Proof.KernelIdealFrame
import proofs.«179444_j1039382086246_1_alg».proof.Proof.KernelPayload
import Idealize.ShloMosaic.Lib.Pipeline.Value

noncomputable section

namespace Cert.KernelIdeal.Tiles

open Cert.KernelIdeal Cert.KernelIdeal.Gen Cert.KernelIdeal.GenP Cert.KernelIdeal.Payload Cert.LengthReg
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result at batch `b`, frame `t`, feature `d`, over the three arrays the region's input windows stage: the
    phoneme vectors and the two boundary arrays in their `[8, 1, 512]` layout. -/
def tileAt (a0 : S8x512x384.Idx → EReal) (a1 a2 : S8x1x512.Idx → BitVec 32) (b : Fin 8) (t : Fin 4096) (d : Fin 384) : EReal :=
  ∑ k : Fin 512, wgt (a1 (ix3 b 0 k)) (a2 (ix3 b 0 k)) t.val * a0 (ix3 b k d)

/-- The same as one array. -/
def tiles (a0 : S8x512x384.Idx → EReal) (a1 a2 : S8x1x512.Idx → BitVec 32) : S8x4096x384.Idx → EReal :=
  fun j => tileAt a0 a1 a2 (j 0) (j 1) (j 2)

/-- ONE POINT'S STORED VALUE IS ITS ENTRY OF `tileAt`: if the three staged blocks are batch `b`'s slices of the three
    arrays and the frame number of row `r` in the point's tile is `f`, then the stored value at `(r, d)` is the result at
    `(b, f, d)`. -/
theorem tile_point (a0 : S8x512x384.Idx → EReal) (a1 a2 : S8x1x512.Idx → BitVec 32)
    (x0 : Vec Ideal S1x512x384 .f32) (x1 x2 : Vec Ideal S1x1x512 .i32) (i : grid0.Coords)
    (z : Fin 1) (r : Fin 1024) (d : Fin 384) (b : Fin 8) (f : Fin 4096) (d' : Fin 384)
    (h0 : ∀ (k : Fin 512) (e : Fin 384), x0 (ix3 (0 : Fin 1) k e) = a0 (ix3 b k e))
    (h1 : ∀ k : Fin 512, x1 (ix3 (0 : Fin 1) (0 : Fin 1) k) = a1 (ix3 b (0 : Fin 1) k))
    (h2 : ∀ k : Fin 512, x2 (ix3 (0 : Fin 1) (0 : Fin 1) k) = a2 (ix3 b (0 : Fin 1) k))
    (hf : (i 1).val * 1024 + r.val = f.val) (hd : d' = d) :
    k0_pay1 (F := Ideal) i x0 x1 x2 (ix3 z r d) = tileAt a0 a1 a2 b f d' := by
  subst hd
  rw [pay_apply]
  unfold tileAt
  refine Finset.sum_congr rfl fun k _ => ?_
  rw [h0, h1, h2, hf]

theorem hz : (![0, 0, 0] : Fin 3 → Nat) = fun _ => 0 := funext fun a => by fin_cases a <;> rfl

/-- The printed index maps, decided over the 32 grid points: every input window sits at block `(b, 0, 0)` and the
    output window at block `(b, tile, 0)`, with `b < 8` and `tile < 4`. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = (grid0.coords t 1).val ∧ win0_3.index t (2 : Fin 3) = 0
    ∧ win0_3.index t (0 : Fin 3) < 8 ∧ win0_3.index t (1 : Fin 3) < 4 :=
  (by decide +kernel : ∀ t : Fin grid0.N, _)

/-- Every tile of the result is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- WHAT POINT `t` WRITES BACK is its tile of `tiles` of the arrays as the region finds them. -/
theorem flushed_eq (c : Dev nD) (t : Fin cfg0.N) :
    (dats m 0 c).flushed 3 t
      = ((cfg0.win 3).blk t).view.read (Elt Ideal) (tiles (V m c main_arg0) (V m c main_v2) (V m c main_v3)) := by
  show (cfg0.win 3).cut (grid0.coords t) ((dats m 0 c).after 3 t) = _
  rw [after0_3]
  unfold out0_3
  rw [View.canon_unit_zero hz]
  simp only [View.ld_unit_zero (S := S1x512x384) hz, View.ld_unit_zero (S := S1x1x512) hz]
  obtain ⟨e00, e01, e02, e10, e11, e12, e20, e21, e22, e31, e32, hb, htile⟩ := idx_facts t
  funext y
  have hy : (win0 3).xinj (grid0.coords t) y = ix3 (n0 := 1) (n1 := 1024) (n2 := 384) (y 0) (y 1) (y 2) := by
    funext a; match a with | ⟨0, _⟩ => rfl | ⟨1, _⟩ => rfl | ⟨2, _⟩ => rfl
  have hy0 : (y 0).val < 1 := (y 0).isLt
  have hy1 : (y 1).val < 1024 := (y 1).isLt
  have hy2 : (y 2).val < 384 := (y 2).isLt
  show k0_pay1 (F := Ideal) (grid0.coords t) (iblk m c 0 t) (iblk m c 1 t) (iblk m c 2 t) ((win0 3).xinj (grid0.coords t) y)
    = tileAt (V m c main_arg0) (V m c main_v2) (V m c main_v3) (((cfg0.win 3).blk t).view.emb y 0)
        (((cfg0.win 3).blk t).view.emb y 1) (((cfg0.win 3).blk t).view.emb y 2)
  rw [hy]
  refine tile_point (V m c main_arg0) (V m c main_v2) (V m c main_v3) (iblk m c 0 t) (iblk m c 1 t) (iblk m c 2 t)
    (grid0.coords t) (y 0) (y 1) (y 2) (((cfg0.win 3).blk t).view.emb y 0) (((cfg0.win 3).blk t).view.emb y 1)
    (((cfg0.win 3).blk t).view.emb y 2) ?_ ?_ ?_ ?_ ?_
  · intro k d
    show V m c main_arg0 (((cfg0.win 0).blk t).view.emb (ix3 (0 : Fin 1) k d)) = _
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 512 + 1 * k.val = k.val; omega
    | ⟨2, _⟩ => show win0_0.index t (2 : Fin 3) * 384 + 1 * d.val = d.val; omega
  · intro k
    show V m c main_v2 (((cfg0.win 1).blk t).view.emb (ix3 (0 : Fin 1) (0 : Fin 1) k)) = _
    refine congrArg (V m c main_v2) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 1 + 1 * 0 = 0; omega
    | ⟨2, _⟩ => show win0_1.index t (2 : Fin 3) * 512 + 1 * k.val = k.val; omega
  · intro k
    show V m c main_v3 (((cfg0.win 2).blk t).view.emb (ix3 (0 : Fin 1) (0 : Fin 1) k)) = _
    refine congrArg (V m c main_v3) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 1 + 1 * 0 = 0; omega
    | ⟨2, _⟩ => show win0_2.index t (2 : Fin 3) * 512 + 1 * k.val = k.val; omega
  · show (grid0.coords t 1).val * 1024 + (y 1).val = win0_3.index t (1 : Fin 3) * 1024 + 1 * (y 1).val
    omega
  · apply Fin.ext
    show win0_3.index t (2 : Fin 3) * 384 + 1 * (y 2).val = (y 2).val
    omega

/-- An index of the result is in point `t`'s tile iff each coordinate is in the tile's range on its axis. -/
theorem mem_blk (t : Fin cfg0.N) (i : S8x4096x384.Idx) :
    i ∈ ((cfg0.win 3).blk t).view.set ↔ ∀ a : Fin 3, win0_3.index t a * S1x1024x384.size a ≤ (i a).val ∧ (i a).val < win0_3.index t a * S1x1024x384.size a + S1x1024x384.size a := by
  show i ∈ ((View.whole main_v4).slice (win0_3.rect t)).set ↔ _
  rw [View.set_slice_whole, Rect.mem_set_unit]
  exact Iff.rfl

/-- The tiles fill the result: index `(b, f, d)` lies in the tile of the point at batch `b`, tile `f / 1024`. -/
theorem cover (i : S8x4096x384.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 384 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 384 ≤ (i 2).val ∧ (i 2).val < win0_3.index t (2 : Fin 3) * 384 + 384; omega

/-- THE RESULT ARRAY after the run is `tiles` of the arrays as the region finds them. -/
theorem final (c : Dev nD) :
    (dats m 0 c).arrAt 3 cfg0.N = tiles (V m c main_arg0) (V m c main_v2) (V m c main_v3) :=
  (dats m 0 c).arrAt_eq_of_cover 3 _ (fun t _ => flushed_eq m c t) cover

/-! ## The run, read -/

theorem post3 (r : PUnit × MemSt nD τ sig (Elt Ideal)) (h : Pipeline.FramePost cfgs (dats m) 0 (V m) r) (c : Dev nD) :
    r.2.mem ((c : Thread nD τ).loc main_v4) = (dats m 0 c).arrAt 3 cfg0.N :=
  (h c).1 3

/-- The phoneme vectors are staged by input window 0 and never written back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The durations are staged by no window: the region leaves them as it found them, and no host operation wrote them. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Every weakly fair execution of the kernel's program terminates with the result array at `tiles` of the arrays the
    region finds, and both arguments unchanged. -/
theorem run : θ_run defs (onTc (τ := τ) (main (F := Ideal))) ⟨m, fun _ => 0, ρ⟩ fun r => ∀ c : Dev nD,
      r.2.mem ((c : Thread nD τ).loc main_v4) = tiles (V m c main_arg0) (V m c main_v2) (V m c main_v3)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post3 m r h c).trans (final m c), kept_main_arg0 m r h c, kept_main_arg1 m r h c⟩)
    (run_main m ρ)

end Cert.KernelIdeal.Tiles

end
-- ==== Proof.KernelHost.lean ====
/-
  The boundary arrays as the kernel's region finds them, and the result in the specification's form.

  Before its one region the kernel's program runs five host operations: the running sum of the durations (three
  operations of an outlined function), the subtraction giving the left boundaries, and a reshape of each of the two
  `[8, 512]` arrays to `[8, 1, 512]`, the layout the region's boundary windows stage row by row.  A reshape keeps the
  row-major position, so entry `(b, 0, k)` of a reshaped array is entry `(b, k)` of the array itself; with that the
  array the region writes is the specification's result of the phoneme vectors and the durations.
-/
import proofs.«179444_j1039382086246_1_alg».proof.Proof.KernelValue
import Idealize.ShloMosaic.Lib.StableHlo.Run

noncomputable section

namespace Cert.KernelIdeal.Boundaries

open Cert.KernelIdeal Cert.KernelIdeal.Gen Cert.KernelIdeal.GenP Cert.KernelIdeal.Tiles Cert.LengthReg
open Idealize.ShloMosaic Idealize.ShloMosaic.TcCoe Idealize.ShloMosaic.ValueIdx Idealize.SL.Sem Idealize.ShloMosaic.StableHlo

variable (m : (ℓ : Loc nD τ sig) → Buf (Elt Ideal) ℓ)

attribute [local irreducible] Host.reduceWindow in
/-- The left boundaries, reshaped, as the region finds them. -/
theorem V_left (c : Dev nD) :
    (V m c main_v2 : S8x1x512.Idx → BitVec 32)
      = shapeCast S8x1x512 (leftOf (m ((c : Thread nD τ).loc main_arg1))) shapeCasts_S8x512_S8x1x512 := by
  dsimp only [V]
  simp only [hostOps0, hostOps0_1, List.flatten_cons, List.flatten_nil, List.append_nil, List.cons_append, List.nil_append]
  after_results
  simp only [TRef.ofBuf, TRef.toBuf, cast_eq]
  rfl

attribute [local irreducible] Host.reduceWindow in
/-- The right boundaries, reshaped, as the region finds them. -/
theorem V_cum (c : Dev nD) :
    (V m c main_v3 : S8x1x512.Idx → BitVec 32)
      = shapeCast S8x1x512 (cumOf (m ((c : Thread nD τ).loc main_arg1))) shapeCasts_S8x512_S8x1x512 := by
  dsimp only [V]
  simp only [hostOps0, hostOps0_1, List.flatten_cons, List.flatten_nil, List.append_nil, List.cons_append, List.nil_append]
  after_results
  simp only [TRef.ofBuf, TRef.toBuf, cast_eq]
  rfl

/-- An `[8, 512]` array reshaped to `[8, 1, 512]` reads, at `(b, 0, k)`, the array at `(b, k)`. -/
theorem reshaped_at (v : IVec S8x512 32) (b : Fin 8) (k : Fin 512) :
    shapeCast S8x1x512 v shapeCasts_S8x512_S8x1x512 (ix3 b (0 : Fin 1) k) = v (ix2 b k) :=
  shapeCast_apply v _ _ _ (by
    rw [Shape.rowMajor_val_two, Shape.rowMajor_val_three]
    show b.val * 512 + k.val = (b.val * 1 + 0) * 512 + k.val
    omega)

/-- The array the region writes is the specification's result of the arguments. -/
theorem tiles_eq_result (c : Dev nD) :
    tiles (V m c main_arg0) (V m c main_v2) (V m c main_v3)
      = result (m ((c : Thread nD τ).loc main_arg0)) (m ((c : Thread nD τ).loc main_arg1)) := by
  rw [V_main_arg0, V_left, V_cum]
  funext j
  obtain ⟨b, t, d, rfl⟩ : ∃ (b : Fin 8) (t : Fin 4096) (d : Fin 384), j = ix3 b t d := ⟨j 0, j 1, j 2, eq_ix3 j⟩
  show tileAt _ _ _ b t d = expand _ _ _ b t d
  unfold tileAt expand
  refine Finset.sum_congr rfl fun k _ => ?_
  rw [reshaped_at, reshaped_at]

end Cert.KernelIdeal.Boundaries

end
-- ==== Proof.RefRun.lean ====
/-
  The reference's @main as a straight line of host operations, and its run read back.

  The reference computes, for durations `ds : i32[8, 512]`,
    cum  = the running sum of `ds` along its second axis (a window sum of width 512 over the array padded on the left by 511 zeros),
    left = cum - ds,
    M[b, t, i] = 1 if  left[b, i] ≤ t < cum[b, i]  (signed compares of 32-bit words), else 0,
    ys[b, t, d] = Σ_i M[b, t, i] · xs[b, i, d].
  The running sum is an outlined function that itself calls another; its three operations are listed here at the call
  site, over the call's own buffers, so that @main is one list of seventeen operations.  Every weakly fair execution of
  that list terminates with each buffer at the list's fold over the launch contents; the fold at the result and at the
  two arguments is then read off by computation.
-/
import proofs.«179444_j1039382086246_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's seventeen operations in order: the running sum's three (the zero, its rank-0 broadcast, the window sum),
    then the left boundaries, the frame numbers and their broadcasts, the two compares, their conjunction, the
    conversion of the mask to a float, and the batched product with `xs`. -/
abbrev ops : List (HloOp τ sig (Elt F)) :=
  [ TRef.nullary main_call0.call0.c (constantI S_ 32 0#32),
    TRef.unary main_call0.call0.c main_call0.call0.v0 (broadcastInDim S_ ![] bcast_S_S_),
    TRef.binary (.of main_arg1) main_call0.call0.v0 main_call0.call0.v1 (fun x v => Host.reduceWindow IntOp.addi ![1, 512] ![1, 1] ![0, 511] ![0, 0] x v reduceWindows_S8x512_S8x512_w1s1p0_0_w512s1p511_0 h_S_),
    binary main_v0 main_arg1 main_v1 (subi : (⟨S8x512, .i32⟩ : BufTy).Contents (Elt F) → (⟨S8x512, .i32⟩ : BufTy).Contents (Elt F) → (⟨S8x512, .i32⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    unary main_v1 main_v4 (broadcastInDim S8x1x512 ![0, 2] bcast_S8x512_S8x1x512_0_2 : (⟨S8x512, .i32⟩ : BufTy).Contents (Elt F) → (⟨S8x1x512, .i32⟩ : BufTy).Contents (Elt F)),
    unary main_v3 main_v5 (broadcastInDim S8x4096x512 ![0, 1, 2] bcast_S1x4096x1_S8x4096x512_0_1_2 : (⟨S1x4096x1, .i32⟩ : BufTy).Contents (Elt F) → (⟨S8x4096x512, .i32⟩ : BufTy).Contents (Elt F)),
    unary main_v4 main_v6 (broadcastInDim S8x4096x512 ![0, 1, 2] bcast_S8x1x512_S8x4096x512_0_1_2 : (⟨S8x1x512, .i32⟩ : BufTy).Contents (Elt F) → (⟨S8x4096x512, .i32⟩ : BufTy).Contents (Elt F)),
    binary main_v5 main_v6 main_v7 (cmpi .sge : (⟨S8x4096x512, .i32⟩ : BufTy).Contents (Elt F) → (⟨S8x4096x512, .i32⟩ : BufTy).Contents (Elt F) → (⟨S8x4096x512, .i1⟩ : BufTy).Contents (Elt F)),
    unary main_v0 main_v8 (broadcastInDim S8x1x512 ![0, 2] bcast_S8x512_S8x1x512_0_2 : (⟨S8x512, .i32⟩ : BufTy).Contents (Elt F) → (⟨S8x1x512, .i32⟩ : BufTy).Contents (Elt F)),
    unary main_v3 main_v9 (broadcastInDim S8x4096x512 ![0, 1, 2] bcast_S1x4096x1_S8x4096x512_0_1_2 : (⟨S1x4096x1, .i32⟩ : BufTy).Contents (Elt F) → (⟨S8x4096x512, .i32⟩ : BufTy).Contents (Elt F)),
    unary main_v8 main_v10 (broadcastInDim S8x4096x512 ![0, 1, 2] bcast_S8x1x512_S8x4096x512_0_1_2 : (⟨S8x1x512, .i32⟩ : BufTy).Contents (Elt F) → (⟨S8x4096x512, .i32⟩ : BufTy).Contents (Elt F)),
    binary main_v9 main_v10 main_v11 (cmpi .slt : (⟨S8x4096x512, .i32⟩ : BufTy).Contents (Elt F) → (⟨S8x4096x512, .i32⟩ : BufTy).Contents (Elt F) → (⟨S8x4096x512, .i1⟩ : BufTy).Contents (Elt F)),
    binary main_v7 main_v11 main_v12 (andi : (⟨S8x4096x512, .i1⟩ : BufTy).Contents (Elt F) → (⟨S8x4096x512, .i1⟩ : BufTy).Contents (Elt F) → (⟨S8x4096x512, .i1⟩ : BufTy).Contents (Elt F)),
    unary main_v12 main_v13 (uitofp .f32 : (⟨S8x4096x512, .i1⟩ : BufTy).Contents (Elt F) → (⟨S8x4096x512, .f32⟩ : BufTy).Contents (Elt F)),
    binary main_v13 main_arg0 main_v14 ((fun l r => Host.dotGeneral dot_S8x4096x512_S8x512x384_S8x4096x384_2_1_1_2_0_0 none l r) : (⟨S8x4096x512, .f32⟩ : BufTy).Contents (Elt F) → (⟨S8x512x384, .f32⟩ : BufTy).Contents (Elt F) → (⟨S8x4096x384, .f32⟩ : BufTy).Contents (Elt F)) ]

/-- @main is that straight line: the two outlined functions unfolded at their calls, sequencing reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub ..,
    unary_bufs_sub .., unary_bufs_sub .., unary_bufs_sub .., binary_bufs_sub .., unary_bufs_sub .., unary_bufs_sub ..,
    unary_bufs_sub .., binary_bufs_sub .., binary_bufs_sub .., unary_bufs_sub .., binary_bufs_sub ..⟩

/-- Every weakly fair execution of the reference terminates with every buffer at the fold of the seventeen operations
    over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference's result array holds, index by index.

  The reference forms the whole 8 × 4096 × 512 mask at once — frame number `t` against the left and right boundaries
  of phoneme `k` of batch `b`, the boundaries and the frame numbers each broadcast to the mask's shape — converts the
  mask bit to a float as an unsigned number, and contracts the mask with the phoneme vectors over the phoneme axis,
  batch by batch.  On extended reals that contraction is the plain sum over the 512 phonemes, so the result at
  `(b, t, d)` is the expanded sequence of the specification.
-/
import proofs.«179444_j1039382086246_1_alg».proof.Proof.RefRun
import proofs.«179444_j1039382086246_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Cert.LengthReg
open Idealize.ShloMosaic Idealize.ShloMosaic.TcCoe Idealize.ShloMosaic.ValueIdx Idealize.SL.Sem Idealize.ShloMosaic.StableHlo

/-! ## The reference's term -/

/-- The frame numbers, broadcast to the mask's shape. -/
def framesOf : IVec S8x4096x512 32 :=
  broadcastInDim S8x4096x512 ![0, 1, 2] bcast_S1x4096x1_S8x4096x512_0_1_2
    (broadcastInDim S1x4096x1 ![1] bcast_S4096_S1x4096x1_1 (iotaInDim S4096 32 0))

/-- An array of per-phoneme words, broadcast to the mask's shape through its `[8, 1, 512]` layout. -/
def spread (v : IVec S8x512 32) : IVec S8x4096x512 32 :=
  broadcastInDim S8x4096x512 ![0, 1, 2] bcast_S8x1x512_S8x4096x512_0_1_2
    (broadcastInDim S8x1x512 ![0, 2] bcast_S8x512_S8x1x512_0_2 v)

/-- The reference's running sum of the durations. -/
def cumR (ds : IVec S8x512 32) : IVec S8x512 32 :=
  Host.reduceWindow IntOp.addi ![1, 512] ![1, 1] ![0, 511] ![0, 0] ds (broadcastInDim S_ ![] bcast_S_S_ (constantI S_ 32 0#32))
    reduceWindows_S8x512_S8x512_w1s1p0_0_w512s1p511_0 h_S_

/-- The mask. -/
def maskOf (ds : IVec S8x512 32) : IVec S8x4096x512 1 :=
  andi (cmpi .sge framesOf (spread (subi (cumR ds) ds))) (cmpi .slt framesOf (spread (cumR ds)))

/-- The reference's result as a term of its two arguments. -/
def refTerm {F : FTy → Type} [FloatOps F] (xs : FVec F S8x512x384 .f32) (ds : IVec S8x512 32) : FVec F S8x4096x384 .f32 :=
  Host.dotGeneral dot_S8x4096x512_S8x512x384_S8x4096x384_2_1_1_2_0_0 none (uitofp (F := F) .f32 (maskOf ds)) xs

attribute [local irreducible] Host.reduceWindow in
/-- The fold of the seventeen operations at the result buffer is that term of the two arguments' contents. -/
theorem out_eq {F : FTy → Type} [FloatOps F] (V : Valuation τ sig (Elt F)) :
    after ops V (main_v14 : DevRef τ sig) = refTerm (V (main_arg0 : DevRef τ sig)) (V (main_arg1 : DevRef τ sig)) := by
  simp only [after_cons, after_nil]
  rfl

theorem arg0_eq {F : FTy → Type} [FloatOps F] (V : Valuation τ sig (Elt F)) :
    after ops V (main_arg0 : DevRef τ sig) = V (main_arg0 : DevRef τ sig) := by
  simp only [after_cons, after_nil]
  rfl

theorem arg1_eq {F : FTy → Type} [FloatOps F] (V : Valuation τ sig (Elt F)) :
    after ops V (main_arg1 : DevRef τ sig) = V (main_arg1 : DevRef τ sig) := by
  simp only [after_cons, after_nil]
  rfl

/-! ## The batched product's index maps, axis by axis -/

theorem lhs_axis0 (j : S8x4096x384.Idx) (k : dot_S8x4096x512_S8x512x384_S8x4096x384_2_1_1_2_0_0.contr.Idx) :
    (dot_S8x4096x512_S8x512x384_S8x4096x384_2_1_1_2_0_0.lhsIdx j k 0).val = (j 0).val := by
  unfold DotDims.lhsIdx
  rw [dif_pos (show (0 : Fin S8x4096x512.rank) ∈ dot_S8x4096x512_S8x512x384_S8x4096x384_2_1_1_2_0_0.lhsBatch by decide)]
  rfl

theorem lhs_axis1 (j : S8x4096x384.Idx) (k : dot_S8x4096x512_S8x512x384_S8x4096x384_2_1_1_2_0_0.contr.Idx) :
    (dot_S8x4096x512_S8x512x384_S8x4096x384_2_1_1_2_0_0.lhsIdx j k 1).val = (j 1).val := by
  unfold DotDims.lhsIdx
  rw [dif_neg (show ¬(1 : Fin S8x4096x512.rank) ∈ dot_S8x4096x512_S8x512x384_S8x4096x384_2_1_1_2_0_0.lhsBatch by decide),
    dif_pos (show (1 : Fin S8x4096x512.rank) ∈ dot_S8x4096x512_S8x512x384_S8x4096x384_2_1_1_2_0_0.lhsNonContracting by decide)]
  rfl

theorem lhs_axis2 (j : S8x4096x384.Idx) (k : dot_S8x4096x512_S8x512x384_S8x4096x384_2_1_1_2_0_0.contr.Idx) :
    (dot_S8x4096x512_S8x512x384_S8x4096x384_2_1_1_2_0_0.lhsIdx j k 2).val = (k ⟨0, by decide⟩).val :=
  DotDims.lhsIdx_val_of_single _ rfl j k

theorem rhs_axis0 (j : S8x4096x384.Idx) (k : dot_S8x4096x512_S8x512x384_S8x4096x384_2_1_1_2_0_0.contr.Idx) :
    (dot_S8x4096x512_S8x512x384_S8x4096x384_2_1_1_2_0_0.rhsIdx j k 0).val = (j 0).val := by
  unfold DotDims.rhsIdx
  rw [dif_pos (show (0 : Fin S8x512x384.rank) ∈ dot_S8x4096x512_S8x512x384_S8x4096x384_2_1_1_2_0_0.rhsBatch by decide)]
  rfl

theorem rhs_axis1 (j : S8x4096x384.Idx) (k : dot_S8x4096x512_S8x512x384_S8x4096x384_2_1_1_2_0_0.contr.Idx) :
    (dot_S8x4096x512_S8x512x384_S8x4096x384_2_1_1_2_0_0.rhsIdx j k 1).val = (k ⟨0, by decide⟩).val :=
  DotDims.rhsIdx_val_of_single _ rfl j k

theorem rhs_axis2 (j : S8x4096x384.Idx) (k : dot_S8x4096x512_S8x512x384_S8x4096x384_2_1_1_2_0_0.contr.Idx) :
    (dot_S8x4096x512_S8x512x384_S8x4096x384_2_1_1_2_0_0.rhsIdx j k 2).val = (j 2).val := by
  unfold DotDims.rhsIdx
  rw [dif_neg (show ¬(2 : Fin S8x512x384.rank) ∈ dot_S8x4096x512_S8x512x384_S8x4096x384_2_1_1_2_0_0.rhsBatch by decide),
    dif_pos (show (2 : Fin S8x512x384.rank) ∈ dot_S8x4096x512_S8x512x384_S8x4096x384_2_1_1_2_0_0.rhsNonContracting by decide)]
  rfl

/-- Under the sum over `Fin 512` the mask is read at `(b, t, k)`. -/
theorem lhs_at (b : Fin 8) (t : Fin 4096) (d : Fin 384) (k : Fin 512) :
    dot_S8x4096x512_S8x512x384_S8x4096x384_2_1_1_2_0_0.lhsIdx (ix3 b t d) ((contrEquiv1 dot_S8x4096x512_S8x512x384_S8x4096x384_2_1_1_2_0_0 512 rfl rfl).symm k) = ix3 b t k := by
  funext a; apply Fin.ext
  match a with
  | ⟨0, _⟩ => exact lhs_axis0 _ _
  | ⟨1, _⟩ => exact lhs_axis1 _ _
  | ⟨2, _⟩ => exact (lhs_axis2 _ _).trans (contrEquiv1_symm_val _ 512 rfl rfl k)

/-- Under the sum over `Fin 512` the phoneme vectors are read at `(b, k, d)`. -/
theorem rhs_at (b : Fin 8) (t : Fin 4096) (d : Fin 384) (k : Fin 512) :
    dot_S8x4096x512_S8x512x384_S8x4096x384_2_1_1_2_0_0.rhsIdx (ix3 b t d) ((contrEquiv1 dot_S8x4096x512_S8x512x384_S8x4096x384_2_1_1_2_0_0 512 rfl rfl).symm k) = ix3 b k d := by
  funext a; apply Fin.ext
  match a with
  | ⟨0, _⟩ => exact rhs_axis0 _ _
  | ⟨1, _⟩ => exact (rhs_axis1 _ _).trans (contrEquiv1_symm_val _ 512 rfl rfl k)
  | ⟨2, _⟩ => exact rhs_axis2 _ _

/-! ## The mask at an index -/

/-- The broadcast frame numbers read the frame's own number, as a word. -/
theorem framesOf_at (b : Fin 8) (t : Fin 4096) (k : Fin 512) : framesOf (ix3 b t k) = BitVec.ofNat 32 t.val :=
  (broadcastInDim_apply _ _ _ (ix3 b t k) (ix3 (0 : Fin 1) t (0 : Fin 1)) (fun a => by
      match a with | ⟨0, _⟩ => rfl | ⟨1, _⟩ => rfl | ⟨2, _⟩ => rfl)).trans
    (broadcastInDim_apply _ _ _ (ix3 (0 : Fin 1) t (0 : Fin 1)) (ix1 t) (fun a => by
      match a with | ⟨0, _⟩ => rfl))

/-- A per-phoneme array broadcast to the mask's shape reads phoneme `k` of batch `b` at every frame. -/
theorem spread_at (v : IVec S8x512 32) (b : Fin 8) (t : Fin 4096) (k : Fin 512) : spread v (ix3 b t k) = v (ix2 b k) :=
  (broadcastInDim_apply _ _ _ (ix3 b t k) (ix3 b (0 : Fin 1) k) (fun a => by
      match a with | ⟨0, _⟩ => rfl | ⟨1, _⟩ => rfl | ⟨2, _⟩ => rfl)).trans
    (broadcastInDim_apply _ _ v (ix3 b (0 : Fin 1) k) (ix2 b k) (fun a => by
      match a with | ⟨0, _⟩ => rfl | ⟨1, _⟩ => rfl))

/-- The reference's running sum and left boundaries are the specification's. -/
theorem cumR_eq (ds : IVec S8x512 32) : cumR ds = cumOf ds := rfl

/-- The mask bit at `(b, t, k)`: frame `t` against phoneme `k`'s window in batch `b`. -/
theorem maskOf_at (ds : IVec S8x512 32) (b : Fin 8) (t : Fin 4096) (k : Fin 512) :
    maskOf ds (ix3 b t k) = inWin (leftOf ds (ix2 b k)) (cumOf ds (ix2 b k)) (BitVec.ofNat 32 t.val) := by
  show IntOp.andi (IntOp.cmpi .sge (framesOf (ix3 b t k)) (spread (subi (cumR ds) ds) (ix3 b t k)))
      (IntOp.cmpi .slt (framesOf (ix3 b t k)) (spread (cumR ds) (ix3 b t k))) = _
  rw [framesOf_at, spread_at, spread_at, cumR_eq]
  rfl

/-! ## The result -/

/-- THE REFERENCE'S RESULT is the specification's. -/
theorem refTerm_eq (xs : FVec Ideal S8x512x384 .f32) (ds : IVec S8x512 32) : refTerm (F := Ideal) xs ds = result xs ds := by
  funext j
  obtain ⟨b, t, d, rfl⟩ : ∃ (b : Fin 8) (t : Fin 4096) (d : Fin 384), j = ix3 b t d := ⟨j 0, j 1, j 2, eq_ix3 j⟩
  unfold refTerm
  refine (Ideal.dotGeneral_apply dot_S8x4096x512_S8x512x384_S8x4096x384_2_1_1_2_0_0 none _ _ _ (ix3 b t d)).trans ?_
  rw [← Equiv.sum_comp (contrEquiv1 dot_S8x4096x512_S8x512x384_S8x4096x384_2_1_1_2_0_0 512 rfl rfl).symm]
  show _ = expand xs (leftOf ds) (cumOf ds) b t d
  unfold expand
  refine Finset.sum_congr rfl fun k _ => ?_
  rw [lhs_at, rhs_at]
  refine congrArg₂ (· * ·) ?_ rfl
  show (((maskOf ds (ix3 b t k)).toNat : ℝ) : EReal) = wgt (leftOf ds (ix2 b k)) (cumOf ds (ix2 b k)) t.val
  rw [maskOf_at]
  rfl

/-- Every weakly fair execution of the reference terminates with its result array at the specification's result of the
    arguments, and both arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans ((out_eq _).trans (refTerm_eq _ _)),
      (h c main_arg0).trans (arg0_eq _), (h c main_arg1).trans (arg1_eq _)⟩)
    (run_fold m ρ)

end Cert.ReferenceIdeal.RefValue

end
-- ==== Proof.lean ====
/-
  A length regulator: phoneme vectors repeated over the frames their durations assign them.

  For phoneme vectors `xs : f32[8, 512, 384]` and integer durations `ds : i32[8, 512]`, let `cum` be the running sum of
  `ds` along the phoneme axis (in wrapping 32-bit arithmetic, as both programs compute it) and `left = cum - ds`.  Both
  programs end with
      ys[b, t, d] = Σ_k  [ left[b, k] ≤ t < cum[b, k] ] · xs[b, k, d]          (t < 4096),
  the bracket being 1 when the two signed word compares hold and 0 otherwise.

  The kernel computes it one 1024-frame tile of one batch at a time: it forms the tile's 1024 × 512 mask from the frame
  word `r + 1024·tile` and the batch's two boundary rows, and multiplies the mask with the batch's 512 × 384 phoneme
  block into a zero accumulator; its 32 tiles are disjoint and fill the result.  The reference forms the whole
  8 × 4096 × 512 mask and contracts it with `xs` batch by batch.  Read on extended reals, where narrowing a float to
  bf16 changes nothing and both contractions are the plain sum over the 512 phonemes, the two results are the same sum
  term by term: the frame words agree because `1024·tile + r` is the frame number `t` itself, and the mask bit is 0 or
  1 whether it is widened and converted as a signed word (the kernel) or converted as an unsigned bit (the reference).
  No law of extended-real arithmetic beyond that is used, so the finiteness of the inputs is never opened.

  The idealization rewrote no operation of the kernel, so there is nothing to preserve.
-/
import proofs.«179444_j1039382086246_1_alg».proof.Defs
import proofs.«179444_j1039382086246_1_alg».proof.Proof.Gen.Kernel
import proofs.«179444_j1039382086246_1_alg».proof.Proof.Gen.KernelIdeal
import proofs.«179444_j1039382086246_1_alg».proof.Proof.Gen.ReferenceIdeal
import proofs.«179444_j1039382086246_1_alg».proof.Proof.Gen.Pre_finite_inputs
import proofs.«179444_j1039382086246_1_alg».proof.Proof.KernelFrame
import proofs.«179444_j1039382086246_1_alg».proof.Proof.KernelIdealFrame
import proofs.«179444_j1039382086246_1_alg».proof.Proof.KernelHost
import proofs.«179444_j1039382086246_1_alg».proof.Proof.RefValue
import Idealize.ShloMosaic.Adequacy
import Idealize.ShloMosaic.Init

noncomputable section

namespace Cert.Proof

open Idealize.ShloMosaic Idealize.SL.Sem

/-- The kernel's program, at the word level, runs and leaves its arguments as they were. -/
theorem frame_kernel : Cert.frame_Kernel := fun m ρ _ => Cert.Kernel.GenP.frame m ρ

/-- So does it read on extended reals. -/
theorem frame_kernelIdeal : Cert.frame_KernelIdeal := fun m ρ _ => Cert.KernelIdeal.GenP.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories that agree on the arguments both programs end with the expanded sequence of those arguments. -/
theorem algebraic : Cert.algebraic_KernelIdeal_ReferenceIdeal := by
  intro m ρ m' ρ' _ hagree
  refine ⟨fun c => Cert.LengthReg.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Boundaries.tiles_eq_result m c), (h c).2⟩)
      (Cert.KernelIdeal.Tiles.run m ρ)
  · refine (θ_run Cert.ReferenceIdeal.defs _ _).mono (fun _ h c => ⟨(h c).1.trans ?_, (h c).2⟩)
      (Cert.ReferenceIdeal.RefValue.run m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
